-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelPayload.lean ====
/-
  What one grid point of each kernel computes, at an index. A point holds 2000 rows of the aggregated features
  and of the nodes' own features, the two weight matrices and the bias row. Both bodies form

      rows · Wlᵀ  +  own · Wrᵀ  +  bias

  with each product a matrix product into a zero accumulator; the first kernel then clamps at zero. Read at row
  `p`, column `q` over the extended reals, a product with a transposed matrix is `∑ₖ rows[p,k] · W[q,k]`: the
  contraction runs over one axis of extent 128, the narrowing of the operands to bf16 changes no value, and the
  transposed operand at `(k, q)` is the matrix at `(q, k)`.
-/
import proofs.«147580_j10282151706738_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The product's operand indices: rows on the left, the contracted axis shared, columns on the right -/

theorem lhs_axis0 (i : S2000x128.Idx) (r : dot_S2000x128_S128x128_S2000x128_1_0_0_1_n_n.contr.Idx) :
    (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (r : dot_S2000x128_S128x128_S2000x128_1_0_0_1_n_n.contr.Idx) :
    (dot_S2000x128_S128x128_S2000x128_1_0_0_1_n_n.lhsIdx i r 1).val = (r ⟨0, by decide⟩).val :=
  dot_S2000x128_S128x128_S2000x128_1_0_0_1_n_n.lhsIdx_val_of_single rfl i r
theorem rhs_axis0 (i : S2000x128.Idx) (r : dot_S2000x128_S128x128_S2000x128_1_0_0_1_n_n.contr.Idx) :
    (dot_S2000x128_S128x128_S2000x128_1_0_0_1_n_n.rhsIdx i r 0).val = (r ⟨0, by decide⟩).val :=
  dot_S2000x128_S128x128_S2000x128_1_0_0_1_n_n.rhsIdx_val_of_single rfl i r
theorem rhs_axis1 (i : S2000x128.Idx) (r : dot_S2000x128_S128x128_S2000x128_1_0_0_1_n_n.contr.Idx) :
    (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of rows times a transposed square matrix, into a zero accumulator: at `(p, q)` the sum over the
    shared axis of `rows[p,k] · W[q,k]`. -/
theorem rowsTimesTransposed_apply (x : FVec Ideal S2000x128 .bf16) (w : FVec Ideal S128x128 .bf16) (p : Fin 2000) (q : Fin 128) :
    matmul dot_S2000x128_S128x128_S2000x128_1_0_0_1_n_n none x (transpose S128x128 [1, 0] w transposes_S128x128_p1_0_S128x128)
        (constant S2000x128 .f32 0x00000000#32) (ix2 p q)
      = ∑ k : Fin 128, x (ix2 p k) * w (ix2 q k) := by
  refine (Ideal.matmul_constant_zero_apply dot_S2000x128_S128x128_S2000x128_1_0_0_1_n_n none x _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er, transpose_ix2_apply]

/-- The zero the first kernel clamps at. -/
theorem clampWord : Scalar.ofBits (F := Ideal) .f32 0x00000000#32 = (0 : EReal) := Ideal.ofBits_zero_f32

/-! ## The two bodies -/

/-- The first kernel's stored value at `(p, q)`: the two products and the bias row added, clamped below at zero. -/
theorem pay0_apply (x0 x3 : Vec Ideal S2000x128 .f32) (x5 x7 : Vec Ideal S128x128 .f32) (x14 : Vec Ideal S1x128 .f32)
    (p : Fin 2000) (q : Fin 128) :
    k0_pay1 (F := Ideal) x0 x3 x5 x7 x14 (ix2 p q)
      = max (((∑ k : Fin 128, x0 (ix2 p k) * x5 (ix2 q k)) + ∑ k : Fin 128, x3 (ix2 p k) * x7 (ix2 q k))
          + x14 (ix2 (0 : Fin 1) q)) 0 := by
  unfold k0_pay1
  simp only [maximumf_apply, addf_apply, broadcast_apply]
  rw [rowsTimesTransposed_apply, rowsTimesTransposed_apply, broadcastTo_1b_ab_apply, clampWord]
  simp only [truncf_apply, shapeCast_self]

/-- The second kernel's stored value at `(p, q)`: the two products and the bias row added. -/
theorem pay1_apply (x0 x3 : Vec Ideal S2000x128 .f32) (x6 x8 : Vec Ideal S128x128 .f32) (x15 : Vec Ideal S1x128 .f32)
    (p : Fin 2000) (q : Fin 128) :
    k1_pay1 (F := Ideal) x0 x3 x6 x8 x15 (ix2 p q)
      = ((∑ k : Fin 128, x0 (ix2 p k) * x6 (ix2 q k)) + ∑ k : Fin 128, x3 (ix2 p k) * x8 (ix2 q k))
          + x15 (ix2 (0 : Fin 1) q) := by
  unfold k1_pay1
  simp only [addf_apply]
  rw [rowsTimesTransposed_apply, rowsTimesTransposed_apply, broadcastTo_1b_ab_apply]
  simp only [truncf_apply, shapeCast_self]

end Cert.KernelIdeal.Hand

end
-- ==== Proof.SageSpec.lean ====
/-
  Two-layer GraphSAGE with mean aggregation, stated index by index over the extended reals.

  One layer takes a matrix of aggregated neighbour features `A` and the nodes' own features `X` (both
  100000 × 128), two 128 × 128 weight matrices `Wl`, `Wr` and a bias `b`, and returns at row `p`, column `q`

      (∑ₖ A[p,k] · Wl[q,k]  +  ∑ₖ X[p,k] · Wr[q,k])  +  b[q]          (`affAt`),

  that is `A · Wlᵀ + X · Wrᵀ + b`; the first layer clamps this below at zero (`reluLayer`), the second does
  not (`layer`). The only algebra the certificate needs is that the three summands may be added in another
  order, `(s₁ + b) + s₂ = (s₁ + s₂) + b`, which holds in every commutative monoid and so on the extended
  reals with no finiteness assumption (`affAt_eq_biasFirst`).

  The aggregation itself (`segMean`) is the same chain of array operations in both programs: rows of the
  features gathered at the edges' (wrapped) source node, summed into the edges' destination node, and divided
  by the number of incoming edges, at least one. It is kept as ONE function of the features and the two edge
  lists; nothing here looks inside it.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- Node features: 100000 nodes, 128 features. -/
abbrev SN : Shape := ⟨2, ![100000, 128]⟩
/-- A weight matrix. -/
abbrev SW : Shape := ⟨2, ![128, 128]⟩
/-- A bias vector. -/
abbrev SB : Shape := ⟨1, ![128]⟩
/-- One entry per edge. -/
abbrev SE : Shape := ⟨1, ![1600000]⟩
abbrev SE1 : Shape := ⟨2, ![1600000, 1]⟩
abbrev SEN : Shape := ⟨2, ![1600000, 128]⟩
/-- One entry per node. -/
abbrev SN0 : Shape := ⟨1, ![100000]⟩
abbrev SN1 : Shape := ⟨2, ![100000, 1]⟩
abbrev S0 : Shape := ⟨0, ![]⟩
/-- The edge list: row 0 the source nodes, row 1 the destination nodes. -/
abbrev SEI : Shape := ⟨2, ![2, 1600000]⟩
abbrev S1E : Shape := ⟨2, ![1, 1600000]⟩

/-! ## One layer at an index -/

/-- `(A · Wlᵀ + X · Wrᵀ + b)[p, q]`, the two products added first and the bias last. -/
def affAt (A X : FVec Ideal SN .f32) (Wl : FVec Ideal SW .f32) (b : FVec Ideal SB .f32) (Wr : FVec Ideal SW .f32)
    (p : Fin 100000) (q : Fin 128) : EReal :=
  ((∑ k : Fin 128, A (ix2 p k) * Wl (ix2 q k)) + ∑ k : Fin 128, X (ix2 p k) * Wr (ix2 q k)) + b (ix1 q)

/-- The same three summands with the bias added to the first product before the second product is added. -/
theorem affAt_eq_biasFirst (A X : FVec Ideal SN .f32) (Wl : FVec Ideal SW .f32) (b : FVec Ideal SB .f32) (Wr : FVec Ideal SW .f32)
    (p : Fin 100000) (q : Fin 128) :
    ((∑ k : Fin 128, A (ix2 p k) * Wl (ix2 q k)) + b (ix1 q)) + (∑ k : Fin 128, X (ix2 p k) * Wr (ix2 q k))
      = affAt A X Wl b Wr p q := by
  unfold affAt
  exact add_right_comm _ _ _

/-- The layer without a nonlinearity, as a whole array. -/
def layer (A X : FVec Ideal SN .f32) (Wl : FVec Ideal SW .f32) (b : FVec Ideal SB .f32) (Wr : FVec Ideal SW .f32) :
    FVec Ideal SN .f32 := fun i => affAt A X Wl b Wr (i 0) (i 1)

/-- The layer followed by `max(·, 0)`, as a whole array. -/
def reluLayer (A X : FVec Ideal SN .f32) (Wl : FVec Ideal SW .f32) (b : FVec Ideal SB .f32) (Wr : FVec Ideal SW .f32) :
    FVec Ideal SN .f32 := fun i => max (affAt A X Wl b Wr (i 0) (i 1)) 0

theorem layer_apply (A X : FVec Ideal SN .f32) (Wl : FVec Ideal SW .f32) (b : FVec Ideal SB .f32) (Wr : FVec Ideal SW .f32)
    (p : Fin 100000) (q : Fin 128) : layer A X Wl b Wr (ix2 p q) = affAt A X Wl b Wr p q := rfl

theorem reluLayer_apply (A X : FVec Ideal SN .f32) (Wl : FVec Ideal SW .f32) (b : FVec Ideal SB .f32) (Wr : FVec Ideal SW .f32)
    (p : Fin 100000) (q : Fin 128) : reluLayer A X Wl b Wr (ix2 p q) = max (affAt A X Wl b Wr p q) 0 := rfl

/-! ## The neighbourhood mean, as one function -/

theorem bc_S0_SE : S0.BroadcastsInDim SE (![] : Fin 0 → Fin SE.rank) := by decide
theorem bc_SE_SE1 : SE.BroadcastsInDim SE1 (![0] : Fin 1 → Fin SE1.rank) := by decide
theorem bc_S0_SN : S0.BroadcastsInDim SN (![] : Fin 0 → Fin SN.rank) := by decide
theorem bc_S0_SN0 : S0.BroadcastsInDim SN0 (![] : Fin 0 → Fin SN0.rank) := by decide
theorem bc_SN0_SN1 : SN0.BroadcastsInDim SN1 (![0] : Fin 1 → Fin SN1.rank) := by decide
theorem bc_SN1_SN : SN1.BroadcastsInDim SN (![0, 1] : Fin 2 → Fin SN.rank) := by decide

theorem sl_row0 : SEI.Slices ![0, 0] S1E := by decide
theorem sl_row1 : SEI.Slices ![1, 0] S1E := by decide
theorem sc_S1E_SE : S1E.ShapeCasts SE := by decide

/-- The edges' source nodes: row 0 of the edge list, as a vector. -/
def srcOf (ei : IVec SEI 32) : IVec SE 32 := shapeCast SE (extractStridedSlice S1E ![0, 0] ei sl_row0) sc_S1E_SE
/-- The edges' destination nodes: row 1 of the edge list, as a vector. -/
def dstOf (ei : IVec SEI 32) : IVec SE 32 := shapeCast SE (extractStridedSlice S1E ![1, 0] ei sl_row1) sc_S1E_SE

variable {F : FTy → Type} [FloatOps F]

/-- An edge's source node with a negative number wrapped around once (`s < 0 ? s + 100000 : s`), as a column. -/
def wrapSrc (src : IVec SE 32) : IVec SE1 32 :=
  broadcastInDim SE1 ![0] bc_SE_SE1
    (select (cmpi .slt src (broadcastInDim SE ![] bc_S0_SE (constantI S0 32 0#32)))
      (addi src (broadcastInDim SE ![] bc_S0_SE (constantI S0 32 100000#32))) src)

/-- The mean over incoming edges: features gathered at each edge's source, summed into its destination, divided by
    the destination's number of incoming edges or by one when it has none. The gather's and the two sums' dimension
    records are parameters, so that each program supplies its own. -/
def segMean (gd : GatherDims SN SE1 SEN) (sd2 : ScatterDims SN SE1 SEN) (sd1 : ScatterDims SN0 SE1 SE)
    (feat : FVec F SN .f32) (src dst : IVec SE 32) : FVec F SN .f32 :=
  Host.divf
    (Host.scatterAdd sd2 (broadcastInDim SN ![] bc_S0_SN (constant S0 .f32 0x00000000#32))
      (broadcastInDim SE1 ![0] bc_SE_SE1 dst) (Host.gather gd feat (wrapSrc src)))
    (broadcastInDim SN ![0, 1] bc_SN1_SN (broadcastInDim SN1 ![0] bc_SN0_SN1
      (maximumf
        (Host.scatterAdd sd1 (broadcastInDim SN0 ![] bc_S0_SN0 (constant S0 .f32 0x00000000#32))
          (broadcastInDim SE1 ![0] bc_SE_SE1 dst) (broadcastInDim SE ![] bc_S0_SE (constant S0 .f32 0x3F800000#32)))
        (broadcastInDim SN0 ![] bc_S0_SN0 (constant S0 .f32 0x3F800000#32)))))

/-! ## The whole network -/

/-- Two layers: the first clamped at zero, the second on the first's result and on its neighbourhood mean. -/
def sage (gd : GatherDims SN SE1 SEN) (sd2 : ScatterDims SN SE1 SEN) (sd1 : ScatterDims SN0 SE1 SE)
    (x : FVec Ideal SN .f32) (ei : IVec SEI 32)
    (W1l : FVec Ideal SW .f32) (b1 : FVec Ideal SB .f32) (W1r W2l : FVec Ideal SW .f32) (b2 : FVec Ideal SB .f32) (W2r : FVec Ideal SW .f32) :
    FVec Ideal SN .f32 :=
  layer
    (segMean gd sd2 sd1 (reluLayer (segMean gd sd2 sd1 x (srcOf ei) (dstOf ei)) x W1l b1 W1r) (srcOf ei) (dstOf ei))
    (reluLayer (segMean gd sd2 sd1 x (srcOf ei) (dstOf ei)) x W1l b1 W1r) W2l b2 W2r

end Cert.Sage

end
-- ==== Proof.KernelRegion0.lean ====
/-
  Region 0 of the kernel program as a whole-array function. The grid has 50 points; point `t` reads rows
  `2000·t … 2000·t + 1999` of the aggregated features and of the nodes' own features, the two weight matrices and
  the bias row whole, and writes rows `2000·t … 2000·t + 1999` of the result. So what point `t` writes back is
  block `t` of ONE array, the layer of the arrays the region finds (`reluLayer`), and the 50 blocks
  tile the 100000 rows: the result array ends holding that layer. Stated for any contents `V` of the buffers at
  the region's entry.
-/
import proofs.«147580_j10282151706738_1_alg».proof.Proof.Gen.KernelIdeal.Frame
import proofs.«147580_j10282151706738_1_alg».proof.Proof.KernelPayload
import proofs.«147580_j10282151706738_1_alg».proof.Proof.SageSpec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets0 : (![0, 0] : Fin 2 → Nat) = fun _ => 0 := funext fun a => by fin_cases a <;> rfl

/-- The printed index maps over the grid: the three row-blocked windows sit at block `(t, 0)`, the three whole ones at `(0, 0)`. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt0 (t : Fin cfg0.N) : t.val < 50 := by
  have h := t.isLt
  have hN : cfg0.N = 50 := N_0
  omega

/-! ## The input blocks as rows of the arrays -/

/-- Row `p` of point `t`'s block of the aggregated features is row `2000·t + p` of the array. -/
theorem meanBlock0_apply (c : Dev nD) (t : Fin cfg0.N) (p : Fin 2000) (k : Fin 128) (i : S100000x128.Idx)
    (h0 : (i 0).val = 2000 * t.val + p.val) (h1 : (i 1).val = k.val) :
    (iblk0 V c 0 t : Vec Ideal S2000x128 .f32) (ix2 p k) = (V c main_v22 : Vec Ideal S100000x128 .f32) i := by
  unfold iblk0
  rw [View.read_apply]
  show V c main_v22 _ = V c main_v22 _
  congr 1
  funext a
  apply Fin.ext
  obtain ⟨e0, e1, -⟩ := blockIndex0 t
  match a with
  | ⟨0, _⟩ => show win0_0.index t 0 * 2000 + 1 * p.val = (i 0).val; rw [e0, h0]; omega
  | ⟨1, _⟩ => show win0_0.index t 1 * 128 + 1 * k.val = (i 1).val; rw [e1, h1]; omega

/-- The same for the nodes' own features. -/
theorem ownBlock0_apply (c : Dev nD) (t : Fin cfg0.N) (p : Fin 2000) (k : Fin 128) (i : S100000x128.Idx)
    (h0 : (i 0).val = 2000 * t.val + p.val) (h1 : (i 1).val = k.val) :
    (iblk0 V c 1 t : Vec Ideal S2000x128 .f32) (ix2 p k) = (V c main_arg0 : Vec Ideal S100000x128 .f32) i := by
  unfold iblk0
  rw [View.read_apply]
  show V c main_arg0 _ = V c main_arg0 _
  congr 1
  funext a
  apply Fin.ext
  obtain ⟨-, -, e0, e1, -⟩ := blockIndex0 t
  match a with
  | ⟨0, _⟩ => show win0_1.index t 0 * 2000 + 1 * p.val = (i 0).val; rw [e0, h0]; omega
  | ⟨1, _⟩ => show win0_1.index t 1 * 128 + 1 * k.val = (i 1).val; rw [e1, h1]; omega

/-- The first weight matrix is read whole at every point. -/
theorem wlBlock0_apply (c : Dev nD) (t : Fin cfg0.N) (q k : Fin 128) :
    (iblk0 V c 2 t : Vec Ideal S128x128 .f32) (ix2 q k) = (V c main_arg2 : Vec Ideal S128x128 .f32) (ix2 q k) := by
  unfold iblk0
  rw [View.read_apply]
  show V c main_arg2 _ = V c main_arg2 _
  congr 1
  funext a
  apply Fin.ext
  obtain ⟨-, -, -, -, e0, e1, -⟩ := blockIndex0 t
  match a with
  | ⟨0, _⟩ => show win0_2.index t 0 * 128 + 1 * q.val = q.val; rw [e0]; omega
  | ⟨1, _⟩ => show win0_2.index t 1 * 128 + 1 * k.val = k.val; rw [e1]; omega

/-- So is the bias row. -/
theorem biasBlock0_apply (c : Dev nD) (t : Fin cfg0.N) (u : Fin 1) (q : Fin 128) :
    (iblk0 V c 3 t : Vec Ideal S1x128 .f32) (ix2 u q) = (V c main_v23 : Vec Ideal S1x128 .f32) (ix2 u q) := by
  unfold iblk0
  rw [View.read_apply]
  show V c main_v23 _ = V c main_v23 _
  congr 1
  funext a
  apply Fin.ext
  obtain ⟨-, -, -, -, -, -, e0, e1, -⟩ := blockIndex0 t
  match a with
  | ⟨0, _⟩ => show win0_3.index t 0 * 1 + 1 * u.val = u.val; rw [e0]; omega
  | ⟨1, _⟩ => show win0_3.index t 1 * 128 + 1 * q.val = q.val; rw [e1]; omega

/-- And the second weight matrix. -/
theorem wrBlock0_apply (c : Dev nD) (t : Fin cfg0.N) (q k : Fin 128) :
    (iblk0 V c 4 t : Vec Ideal S128x128 .f32) (ix2 q k) = (V c main_arg4 : Vec Ideal S128x128 .f32) (ix2 q k) := by
  unfold iblk0
  rw [View.read_apply]
  show V c main_arg4 _ = V c main_arg4 _
  congr 1
  funext a
  apply Fin.ext
  obtain ⟨-, -, -, -, -, -, -, -, e0, e1, -⟩ := blockIndex0 t
  match a with
  | ⟨0, _⟩ => show win0_4.index t 0 * 128 + 1 * q.val = q.val; rw [e0]; omega
  | ⟨1, _⟩ => show win0_4.index t 1 * 128 + 1 * k.val = k.val; rw [e1]; omega

/-! ## What a point writes back, and the array after the region -/

/-- Entry `(p, q)` of the output's block at point `t` is entry `(2000·t + p, q)` of the result array. -/
theorem outBlock0_emb (t : Fin cfg0.N) (p : Fin 2000) (q : Fin 128) (hP : 2000 * t.val + p.val < 100000) :
    ((cfg0.win 5).blk t).view.emb (ix2 p q) = (ix2 (⟨2000 * t.val + p.val, hP⟩ : Fin 100000) q : S100000x128.Idx) := by
  funext a
  apply Fin.ext
  obtain ⟨-, -, -, -, -, -, -, -, -, -, e0, e1⟩ := blockIndex0 t
  match a with
  | ⟨0, _⟩ => show win0_5.index t 0 * 2000 + 1 * p.val = 2000 * t.val + p.val; rw [e0]; omega
  | ⟨1, _⟩ => show win0_5.index t 1 * 128 + 1 * q.val = q.val; rw [e1]; omega

set_option maxHeartbeats 4000000 in
/-- WHAT POINT `t` WRITES BACK is block `t` of the layer of the arrays the region finds; `b` is the bias row read as a vector. -/
theorem flushed0_eq (c : Dev nD) (b : FVec Ideal SB .f32)
    (hb : ∀ q : Fin 128, (V c main_v23 : Vec Ideal S1x128 .f32) (ix2 (0 : Fin 1) q) = b (ix1 q)) (t : Fin cfg0.N) :
    (dat0 V c).flushed 5 t = ((cfg0.win 5).blk t).view.read (Elt Ideal)
      (reluLayer (V c main_v22) (V c main_arg0) (V c main_arg2) b (V c main_arg4)) := by
  show (cfg0.win 5).cut (grid0.coords t) ((dat0 V c).after 5 t) = _
  rw [after0_5]
  unfold out0_5
  rw [View.canon_unit_zero zeroOffsets0]
  simp only [View.ld_unit_zero (S := S2000x128) zeroOffsets0, View.ld_unit_zero (S := S128x128) zeroOffsets0, View.ld_unit_zero (S := S1x128) zeroOffsets0]
  funext j
  obtain ⟨p, q, rfl⟩ : ∃ (p : Fin 2000) (q : Fin 128), j = ix2 p q := ⟨j 0, j 1, eq_ix2 j⟩
  have ht := point_lt0 t
  have hP : 2000 * t.val + p.val < 100000 := by have := p.isLt; omega
  rw [View.read_apply, outBlock0_emb t p q hP, reluLayer_apply]
  show k0_pay1 (F := Ideal) (iblk0 V c 0 t) (iblk0 V c 1 t) (iblk0 V c 2 t) (iblk0 V c 4 t) (iblk0 V c 3 t) (ix2 p q) = _
  rw [pay0_apply]
  unfold affAt
  rw [biasBlock0_apply V c t 0 q, hb q]
  congr 2
  congr 1
  · exact Finset.sum_congr rfl fun k _ => by
      rw [meanBlock0_apply V c t p k (ix2 ⟨2000 * t.val + p.val, hP⟩ k) rfl rfl, wlBlock0_apply V c t q k]
  · exact Finset.sum_congr rfl fun k _ => by
      rw [ownBlock0_apply V c t p k (ix2 ⟨2000 * t.val + p.val, hP⟩ k) rfl rfl, wrBlock0_apply V c t q k]

/-- An index of the result array lies in point `t`'s block iff each coordinate is in the block's range on its axis. -/
theorem mem_outBlock0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- THE RESULT ARRAY after the region: the layer of the arrays the region finds. Row `r` is covered by point `r / 2000`. -/
theorem final0 (c : Dev nD) (b : FVec Ideal SB .f32)
    (hb : ∀ q : Fin 128, (V c main_v23 : Vec Ideal S1x128 .f32) (ix2 (0 : Fin 1) q) = b (ix1 q)) :
    (dat0 V c).arrAt 5 cfg0.N
      = reluLayer (V c main_v22) (V c main_arg0) (V c main_arg2) b (V c main_arg4) :=
  (dat0 V c).arrAt_eq_of_cover 5 _ (fun t _ => flushed0_eq V c b hb t) fun i => by
    have hi0 : (i 0).val < 100000 := (i 0).isLt
    have hi1 : (i 1).val < 128 := (i 1).isLt
    have hN : cfg0.N = 50 := N_0
    let t : Fin cfg0.N := ⟨(i 0).val / 2000, by rw [hN]; omega⟩
    refine ⟨t, flush0_5 t, ?_⟩
    rw [mem_outBlock0]
    obtain ⟨-, -, -, -, -, -, -, -, -, -, e0, e1⟩ := blockIndex0 t
    have ht : t.val = (i 0).val / 2000 := rfl
    intro a
    match a with
    | ⟨0, _⟩ => show win0_5.index t (0 : Fin 2) * 2000 ≤ (i 0).val ∧ (i 0).val < win0_5.index t (0 : Fin 2) * 2000 + 2000; rw [e0, ht]; omega
    | ⟨1, _⟩ => show win0_5.index t (1 : Fin 2) * 128 ≤ (i 1).val ∧ (i 1).val < win0_5.index t (1 : Fin 2) * 128 + 128; rw [e1]; omega

end Cert.KernelIdeal.Hand

end
-- ==== Proof.KernelRegion1.lean ====
/-
  Region 1 of the kernel program as a whole-array function. The grid has 50 points; point `t` reads rows
  `2000·t … 2000·t + 1999` of the aggregated features and of the nodes' own features, the two weight matrices and
  the bias row whole, and writes rows `2000·t … 2000·t + 1999` of the result. So what point `t` writes back is
  block `t` of ONE array, the layer of the arrays the region finds (`layer`), and the 50 blocks
  tile the 100000 rows: the result array ends holding that layer. Stated for any contents `V` of the buffers at
  the region's entry.
-/
import proofs.«147580_j10282151706738_1_alg».proof.Proof.Gen.KernelIdeal.Frame
import proofs.«147580_j10282151706738_1_alg».proof.Proof.KernelPayload
import proofs.«147580_j10282151706738_1_alg».proof.Proof.SageSpec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The printed index maps over the grid: the three row-blocked windows sit at block `(t, 0)`, the three whole ones at `(0, 0)`. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt1 (t : Fin cfg1.N) : t.val < 50 := by
  have h := t.isLt
  have hN : cfg1.N = 50 := N_1
  omega

/-! ## The input blocks as rows of the arrays -/

/-- Row `p` of point `t`'s block of the aggregated features is row `2000·t + p` of the array. -/
theorem meanBlock1_apply (c : Dev nD) (t : Fin cfg1.N) (p : Fin 2000) (k : Fin 128) (i : S100000x128.Idx)
    (h0 : (i 0).val = 2000 * t.val + p.val) (h1 : (i 1).val = k.val) :
    (iblk1 V c 0 t : Vec Ideal S2000x128 .f32) (ix2 p k) = (V c main_v43 : Vec Ideal S100000x128 .f32) i := by
  unfold iblk1
  rw [View.read_apply]
  show V c main_v43 _ = V c main_v43 _
  congr 1
  funext a
  apply Fin.ext
  obtain ⟨e0, e1, -⟩ := blockIndex1 t
  match a with
  | ⟨0, _⟩ => show win1_0.index t 0 * 2000 + 1 * p.val = (i 0).val; rw [e0, h0]; omega
  | ⟨1, _⟩ => show win1_0.index t 1 * 128 + 1 * k.val = (i 1).val; rw [e1, h1]; omega

/-- The same for the nodes' own features. -/
theorem ownBlock1_apply (c : Dev nD) (t : Fin cfg1.N) (p : Fin 2000) (k : Fin 128) (i : S100000x128.Idx)
    (h0 : (i 0).val = 2000 * t.val + p.val) (h1 : (i 1).val = k.val) :
    (iblk1 V c 1 t : Vec Ideal S2000x128 .f32) (ix2 p k) = (V c main_v24 : Vec Ideal S100000x128 .f32) i := by
  unfold iblk1
  rw [View.read_apply]
  show V c main_v24 _ = V c main_v24 _
  congr 1
  funext a
  apply Fin.ext
  obtain ⟨-, -, e0, e1, -⟩ := blockIndex1 t
  match a with
  | ⟨0, _⟩ => show win1_1.index t 0 * 2000 + 1 * p.val = (i 0).val; rw [e0, h0]; omega
  | ⟨1, _⟩ => show win1_1.index t 1 * 128 + 1 * k.val = (i 1).val; rw [e1, h1]; omega

/-- The first weight matrix is read whole at every point. -/
theorem wlBlock1_apply (c : Dev nD) (t : Fin cfg1.N) (q k : Fin 128) :
    (iblk1 V c 2 t : Vec Ideal S128x128 .f32) (ix2 q k) = (V c main_arg5 : Vec Ideal S128x128 .f32) (ix2 q k) := by
  unfold iblk1
  rw [View.read_apply]
  show V c main_arg5 _ = V c main_arg5 _
  congr 1
  funext a
  apply Fin.ext
  obtain ⟨-, -, -, -, e0, e1, -⟩ := blockIndex1 t
  match a with
  | ⟨0, _⟩ => show win1_2.index t 0 * 128 + 1 * q.val = q.val; rw [e0]; omega
  | ⟨1, _⟩ => show win1_2.index t 1 * 128 + 1 * k.val = k.val; rw [e1]; omega

/-- So is the bias row. -/
theorem biasBlock1_apply (c : Dev nD) (t : Fin cfg1.N) (u : Fin 1) (q : Fin 128) :
    (iblk1 V c 3 t : Vec Ideal S1x128 .f32) (ix2 u q) = (V c main_v44 : Vec Ideal S1x128 .f32) (ix2 u q) := by
  unfold iblk1
  rw [View.read_apply]
  show V c main_v44 _ = V c main_v44 _
  congr 1
  funext a
  apply Fin.ext
  obtain ⟨-, -, -, -, -, -, e0, e1, -⟩ := blockIndex1 t
  match a with
  | ⟨0, _⟩ => show win1_3.index t 0 * 1 + 1 * u.val = u.val; rw [e0]; omega
  | ⟨1, _⟩ => show win1_3.index t 1 * 128 + 1 * q.val = q.val; rw [e1]; omega

/-- And the second weight matrix. -/
theorem wrBlock1_apply (c : Dev nD) (t : Fin cfg1.N) (q k : Fin 128) :
    (iblk1 V c 4 t : Vec Ideal S128x128 .f32) (ix2 q k) = (V c main_arg7 : Vec Ideal S128x128 .f32) (ix2 q k) := by
  unfold iblk1
  rw [View.read_apply]
  show V c main_arg7 _ = V c main_arg7 _
  congr 1
  funext a
  apply Fin.ext
  obtain ⟨-, -, -, -, -, -, -, -, e0, e1, -⟩ := blockIndex1 t
  match a with
  | ⟨0, _⟩ => show win1_4.index t 0 * 128 + 1 * q.val = q.val; rw [e0]; omega
  | ⟨1, _⟩ => show win1_4.index t 1 * 128 + 1 * k.val = k.val; rw [e1]; omega

/-! ## What a point writes back, and the array after the region -/

/-- Entry `(p, q)` of the output's block at point `t` is entry `(2000·t + p, q)` of the result array. -/
theorem outBlock1_emb (t : Fin cfg1.N) (p : Fin 2000) (q : Fin 128) (hP : 2000 * t.val + p.val < 100000) :
    ((cfg1.win 5).blk t).view.emb (ix2 p q) = (ix2 (⟨2000 * t.val + p.val, hP⟩ : Fin 100000) q : S100000x128.Idx) := by
  funext a
  apply Fin.ext
  obtain ⟨-, -, -, -, -, -, -, -, -, -, e0, e1⟩ := blockIndex1 t
  match a with
  | ⟨0, _⟩ => show win1_5.index t 0 * 2000 + 1 * p.val = 2000 * t.val + p.val; rw [e0]; omega
  | ⟨1, _⟩ => show win1_5.index t 1 * 128 + 1 * q.val = q.val; rw [e1]; omega

set_option maxHeartbeats 4000000 in
/-- WHAT POINT `t` WRITES BACK is block `t` of the layer of the arrays the region finds; `b` is the bias row read as a vector. -/
theorem flushed1_eq (c : Dev nD) (b : FVec Ideal SB .f32)
    (hb : ∀ q : Fin 128, (V c main_v44 : Vec Ideal S1x128 .f32) (ix2 (0 : Fin 1) q) = b (ix1 q)) (t : Fin cfg1.N) :
    (dat1 V c).flushed 5 t = ((cfg1.win 5).blk t).view.read (Elt Ideal)
      (layer (V c main_v43) (V c main_v24) (V c main_arg5) b (V c main_arg7)) := by
  show (cfg1.win 5).cut (grid1.coords t) ((dat1 V c).after 5 t) = _
  rw [after1_5]
  unfold out1_5
  rw [View.canon_unit_zero zeroOffsets1]
  simp only [View.ld_unit_zero (S := S2000x128) zeroOffsets1, View.ld_unit_zero (S := S128x128) zeroOffsets1, View.ld_unit_zero (S := S1x128) zeroOffsets1]
  funext j
  obtain ⟨p, q, rfl⟩ : ∃ (p : Fin 2000) (q : Fin 128), j = ix2 p q := ⟨j 0, j 1, eq_ix2 j⟩
  have ht := point_lt1 t
  have hP : 2000 * t.val + p.val < 100000 := by have := p.isLt; omega
  rw [View.read_apply, outBlock1_emb t p q hP, layer_apply]
  show k1_pay1 (F := Ideal) (iblk1 V c 0 t) (iblk1 V c 1 t) (iblk1 V c 2 t) (iblk1 V c 4 t) (iblk1 V c 3 t) (ix2 p q) = _
  rw [pay1_apply]
  unfold affAt
  rw [biasBlock1_apply V c t 0 q, hb q]
  congr 1
  congr 1
  · exact Finset.sum_congr rfl fun k _ => by
      rw [meanBlock1_apply V c t p k (ix2 ⟨2000 * t.val + p.val, hP⟩ k) rfl rfl, wlBlock1_apply V c t q k]
  · exact Finset.sum_congr rfl fun k _ => by
      rw [ownBlock1_apply V c t p k (ix2 ⟨2000 * t.val + p.val, hP⟩ k) rfl rfl, wrBlock1_apply V c t q k]

/-- An index of the result array lies in point `t`'s block iff each coordinate is in the block's range on its axis. -/
theorem mem_outBlock1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- THE RESULT ARRAY after the region: the layer of the arrays the region finds. Row `r` is covered by point `r / 2000`. -/
theorem final1 (c : Dev nD) (b : FVec Ideal SB .f32)
    (hb : ∀ q : Fin 128, (V c main_v44 : Vec Ideal S1x128 .f32) (ix2 (0 : Fin 1) q) = b (ix1 q)) :
    (dat1 V c).arrAt 5 cfg1.N
      = layer (V c main_v43) (V c main_v24) (V c main_arg5) b (V c main_arg7) :=
  (dat1 V c).arrAt_eq_of_cover 5 _ (fun t _ => flushed1_eq V c b hb t) fun i => by
    have hi0 : (i 0).val < 100000 := (i 0).isLt
    have hi1 : (i 1).val < 128 := (i 1).isLt
    have hN : cfg1.N = 50 := N_1
    let t : Fin cfg1.N := ⟨(i 0).val / 2000, by rw [hN]; omega⟩
    refine ⟨t, flush1_5 t, ?_⟩
    rw [mem_outBlock1]
    obtain ⟨-, -, -, -, -, -, -, -, -, -, e0, e1⟩ := blockIndex1 t
    have ht : t.val = (i 0).val / 2000 := rfl
    intro a
    match a with
    | ⟨0, _⟩ => show win1_5.index t (0 : Fin 2) * 2000 ≤ (i 0).val ∧ (i 0).val < win1_5.index t (0 : Fin 2) * 2000 + 2000; rw [e0, ht]; omega
    | ⟨1, _⟩ => show win1_5.index t (1 : Fin 2) * 128 ≤ (i 1).val ∧ (i 1).val < win1_5.index t (1 : Fin 2) * 128 + 128; rw [e1]; omega

end Cert.KernelIdeal.Hand

end
-- ==== Proof.KernelHost.lean ====
/-
  The buffers each region of the kernel program finds, as functions of the launch memory. Before the first
  region the host has computed the neighbourhood mean of the input features and reshaped the first bias to a row;
  between the regions it computes the neighbourhood mean of the first region's result (from the same two edge
  lists, computed once before the first region) and reshapes the second bias. Every other buffer a region reads is
  an argument no operation writes, or the first region's result.
-/
import proofs.«147580_j10282151706738_1_alg».proof.Proof.Gen.KernelIdeal.Frame
import proofs.«147580_j10282151706738_1_alg».proof.Proof.SageSpec
import Idealize.ShloMosaic.Lib.StableHlo.Run

set_option maxRecDepth 16384

noncomputable section

namespace Cert.KernelIdeal.Hand

open Cert.KernelIdeal Cert.KernelIdeal.Gen Cert.Sage
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

set_option maxHeartbeats 8000000 in
/-- The first region's aggregated features: the neighbourhood mean of the input features. -/
theorem entry0_mean (c : Dev nD) :
    V1 m ρ c main_v22 = segMean (F := F) gather_S100000x128_S1600000x1_S1600000x128_1_0_n_n_0_1_1128 scatter_S100000x128_S1600000x1_S1600000x128_1_0_0_1 scatter_S100000_S1600000x1_S1600000_n_0_0_1
      (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results_simp
  unfold segMean wrapSrc srcOf dstOf
  rfl

/-- The first bias as a row. -/
theorem entry0_bias (c : Dev nD) :
    V1 m ρ c main_v23 = shapeCast S1x128 (m ((c : Thread nD τ).loc main_arg3)) shapeCasts_S128_S1x128 := by
  show StableHlo.after hostOps0 (W0 m ρ c) (Proc.devRef .tc main_v23) = _
  after_results
  rfl

theorem entry0_arg0 (c : Dev nD) : V1 m ρ c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem entry0_arg2 (c : Dev nD) : V1 m ρ c main_arg2 = m ((c : Thread nD τ).loc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem entry0_arg4 (c : Dev nD) : V1 m ρ c main_arg4 = m ((c : Thread nD τ).loc main_arg4) :=
  StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## Between the regions -/

/-- The edges' source nodes are still what the first stretch computed. -/
theorem mid_src (c : Dev nD) : W2 m ρ c (Proc.devRef .tc main_v1) = srcOf (m ((c : Thread nD τ).loc main_arg1)) :=
  (W2_of_ne m ρ c main_v1 (by decide)).trans (by
    show StableHlo.after hostOps0 (W0 m ρ c) (Proc.devRef .tc main_v1) = _
    after_results
    rfl)
/-- So are the destination nodes. -/
theorem mid_dst (c : Dev nD) : W2 m ρ c (Proc.devRef .tc main_v3) = dstOf (m ((c : Thread nD τ).loc main_arg1)) :=
  (W2_of_ne m ρ c main_v3 (by decide)).trans (by
    show StableHlo.after hostOps0 (W0 m ρ c) (Proc.devRef .tc main_v3) = _
    after_results
    rfl)

/-- An argument neither region 0 nor the first stretch touches is as launched. -/
theorem mid_arg5 (c : Dev nD) : W2 m ρ c (Proc.devRef .tc main_arg5) = m ((c : Thread nD τ).loc main_arg5) :=
  (W2_of_ne m ρ c main_arg5 (by decide)).trans (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem mid_arg6 (c : Dev nD) : W2 m ρ c (Proc.devRef .tc main_arg6) = m ((c : Thread nD τ).loc main_arg6) :=
  (W2_of_ne m ρ c main_arg6 (by decide)).trans (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem mid_arg7 (c : Dev nD) : W2 m ρ c (Proc.devRef .tc main_arg7) = m ((c : Thread nD τ).loc main_arg7) :=
  (W2_of_ne m ρ c main_arg7 (by decide)).trans (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

set_option maxHeartbeats 8000000 in
/-- The second region's aggregated features: the neighbourhood mean of the first region's result. -/
theorem entry1_mean (c : Dev nD) :
    V3 m ρ c main_v43 = segMean (F := F) gather_S100000x128_S1600000x1_S1600000x128_1_0_n_n_0_1_1128 scatter_S100000x128_S1600000x1_S1600000x128_1_0_0_1 scatter_S100000_S1600000x1_S1600000_n_0_0_1
      (W2 m ρ c (Proc.devRef .tc main_v24)) (W2 m ρ c (Proc.devRef .tc main_v1)) (W2 m ρ c (Proc.devRef .tc main_v3)) := by
  show StableHlo.after hostOps1 (W2 m ρ c) (Proc.devRef .tc main_v43) = _
  after_results_simp
  unfold segMean wrapSrc
  rfl

/-- The second bias as a row. -/
theorem entry1_bias (c : Dev nD) :
    V3 m ρ c main_v44 = shapeCast S1x128 (m ((c : Thread nD τ).loc main_arg6)) shapeCasts_S128_S1x128 := by
  show StableHlo.after hostOps1 (W2 m ρ c) (Proc.devRef .tc main_v44) = _
  after_results
  rw [mid_arg6]
  rfl

/-- The second region reads the first region's result where the first region left it. -/
theorem entry1_own (c : Dev nD) : V3 m ρ c main_v24 = W2 m ρ c (Proc.devRef .tc main_v24) :=
  StableHlo.after_of_forall_not_mem (b := Proc.devRef .tc main_v24) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem entry1_arg5 (c : Dev nD) : V3 m ρ c main_arg5 = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (mid_arg5 m ρ c)
theorem entry1_arg7 (c : Dev nD) : V3 m ρ c main_arg7 = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (mid_arg7 m ρ c)

end Cert.KernelIdeal.Hand

end
-- ==== Proof.KernelValue.lean ====
/-
  The kernel program's result as the two-layer network of the specification. The run ends with the result array
  holding what the second region's write-backs leave. By the region's closed form that is the unclamped layer of
  the buffers the region finds: the neighbourhood mean of the first region's result, that result itself, the
  second layer's weights and bias. The first region's result is, by its closed form, the clamped layer of the
  neighbourhood mean of the input features, the input features, and the first layer's weights and bias. A bias
  vector reshaped to one row reads, at column `q`, the vector at `q`.
-/
import proofs.«147580_j10282151706738_1_alg».proof.Proof.KernelIdealRun
import proofs.«147580_j10282151706738_1_alg».proof.Proof.KernelRegion0
import proofs.«147580_j10282151706738_1_alg».proof.Proof.KernelRegion1
import proofs.«147580_j10282151706738_1_alg».proof.Proof.KernelHost
import Idealize.ShloMosaic.Lib.ValueLayout

set_option maxRecDepth 16384

noncomputable section

namespace Cert.KernelIdeal.Hand

open Cert.KernelIdeal Cert.KernelIdeal.Gen Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg)

/-- A bias vector reshaped to one row, read at column `q`. -/
theorem biasRow_apply (b : FVec Ideal S128 .f32) (q : Fin 128) :
    (shapeCast S1x128 b shapeCasts_S128_S1x128 : Vec Ideal S1x128 .f32) (ix2 (0 : Fin 1) q) = b (ix1 q) :=
  shapeCast_a_1a_apply b shapeCasts_S128_S1x128 0 q

/-- The first region's result: the clamped first layer. -/
theorem hidden_eq (c : Dev nD) :
    (dat0 (V1 m ρ) c).arrAt 5 cfg0.N
      = reluLayer (segMean gather_S100000x128_S1600000x1_S1600000x128_1_0_n_n_0_1_1128 scatter_S100000x128_S1600000x1_S1600000x128_1_0_0_1 scatter_S100000_S1600000x1_S1600000_n_0_0_1
            (m ((c : Thread nD τ).loc main_arg0)) (srcOf (m ((c : Thread nD τ).loc main_arg1))) (dstOf (m ((c : Thread nD τ).loc main_arg1))))
          (m ((c : Thread nD τ).loc main_arg0)) (m ((c : Thread nD τ).loc main_arg2)) (m ((c : Thread nD τ).loc main_arg3)) (m ((c : Thread nD τ).loc main_arg4)) := by
  rw [final0 (V1 m ρ) c (m ((c : Thread nD τ).loc main_arg3)) (fun q => by rw [entry0_bias]; exact biasRow_apply _ q),
    entry0_mean, entry0_arg0, entry0_arg2, entry0_arg4]

/-- THE KERNEL PROGRAM'S RESULT is the two-layer network of its arguments. -/
theorem result_eq (c : Dev nD) :
    W4 m ρ c (Proc.devRef .tc main_v45)
      = sage gather_S100000x128_S1600000x1_S1600000x128_1_0_n_n_0_1_1128 scatter_S100000x128_S1600000x1_S1600000x128_1_0_0_1 scatter_S100000_S1600000x1_S1600000_n_0_0_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [final1 (V3 m ρ) c (m ((c : Thread nD τ).loc main_arg6)) (fun q => by rw [entry1_bias]; exact biasRow_apply _ q),
    entry1_mean, entry1_own, entry1_arg5, entry1_arg7, mid_src, mid_dst]
  rw [show W2 m ρ c (Proc.devRef .tc main_v24) = (dat0 (V1 m ρ) c).arrAt 5 cfg0.N from W2_arr m ρ c 5, hidden_eq]
  rfl

/-- The run, read: the result array at the network of the arguments, the arguments unchanged. -/
theorem run : θ_run defs (onTc (τ := τ) (main (F := Ideal))) ⟨m, fun _ => 0, ρ⟩ (fun r => ∀ c : Dev nD,
      r.2.mem ((c.tc : Thread nD τ).loc main_v45)
        = sage gather_S100000x128_S1600000x1_S1600000x128_1_0_n_n_0_1_1128 scatter_S100000x128_S1600000x1_S1600000x128_1_0_0_1 scatter_S100000_S1600000x1_S1600000_n_0_0_1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Named.run_named m ρ)

end Cert.KernelIdeal.Hand

end
-- ==== Proof.ReferenceValue.lean ====
/-
  The reference program's result as the two-layer network of the specification. Each layer of the reference is

      (mean · Wlᵀ + bias) + own · Wrᵀ,

  two host matrix products against transposed weights and a bias vector broadcast over the rows. At row `p`,
  column `q` a product is `∑ₖ rows[p,k] · W[q,k]` (one contracted axis of extent 128; the transposed operand at
  `(k, q)` is the matrix at `(q, k)`), the broadcast bias is `bias[q]`, and the three summands regroup to the
  specification's order. The neighbourhood means are the specification's one function applied to the layer's
  input; the first layer's clamp is the host's maximum with a zero array.
-/
import proofs.«147580_j10282151706738_1_alg».proof.Proof.Gen.ReferenceIdeal.Run
import proofs.«147580_j10282151706738_1_alg».proof.Proof.Gen.ReferenceIdeal.Read
import proofs.«147580_j10282151706738_1_alg».proof.Proof.SageSpec
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.Read Cert.Sage
open Idealize.ShloMosaic Idealize.ShloMosaic.TcCoe Idealize.ShloMosaic.ValueIdx Idealize.SL.Sem

/-! ## One layer of the reference at an index -/

/-- A host product of a feature matrix with a transposed weight matrix, at `(p, q)`. -/
theorem hostProduct_apply (A : FVec Ideal S100000x128 .f32) (W : FVec Ideal S128x128 .f32) (p : Fin 100000) (q : Fin 128) :
    Host.dotGeneral dot_S100000x128_S128x128_S100000x128_1_0_0_1_n_n none A (transpose S128x128 [1, 0] W transposes_S128x128_S128x128_1_0) (ix2 p q)
      = ∑ k : Fin 128, A (ix2 p k) * W (ix2 q k) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact lhs_main_v24_0 _ _
    | ⟨1, _⟩ => exact (lhs_main_v24_1 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (rhs_main_v24_0 _ _).trans hk
    | ⟨1, _⟩ => exact rhs_main_v24_1 _ _)
  rw [el, er, transpose_ix2_apply]

/-- A bias vector made a row and broadcast over the 100000 rows, at `(p, q)`. -/
theorem hostBias_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  show val_main_v26 (F := Ideal) b (ix2 p q) = _
  rw [val_main_v26_apply, val_main_v25_apply]
  exact congrArg b (funext fun a => match a with | ⟨0, _⟩ => rfl)

/-- The reference's layer, `(mean · Wlᵀ + bias) + own · Wrᵀ`, is the specification's layer. -/
theorem hostLayer_eq (A X : FVec Ideal S100000x128 .f32) (Wl Wr : FVec Ideal S128x128 .f32) (b : FVec Ideal S128 .f32) :
    addf (addf (Host.dotGeneral dot_S100000x128_S128x128_S100000x128_1_0_0_1_n_n none A (transpose S128x128 [1, 0] Wl transposes_S128x128_S128x128_1_0))
        (broadcastInDim S100000x128 ![0, 1] bcast_S1x128_S100000x128_0_1 (broadcastInDim S1x128 ![1] bcast_S128_S1x128_1 b)))
      (Host.dotGeneral dot_S100000x128_S128x128_S100000x128_1_0_0_1_n_n none X (transpose S128x128 [1, 0] Wr transposes_S128x128_S128x128_1_0))
      = layer A X Wl b Wr := by
  funext i
  obtain ⟨p, q, rfl⟩ : ∃ (p : Fin 100000) (q : Fin 128), i = ix2 p q := ⟨i 0, i 1, eq_ix2 i⟩
  rw [layer_apply]
  simp only [addf_apply]
  rw [hostProduct_apply, hostProduct_apply, hostBias_apply]
  exact affAt_eq_biasFirst A X Wl b Wr p q

/-! ## The reference's stages -/

/-- The first neighbourhood mean. -/
theorem mean1_eq (x0 : (⟨S100000x128, .f32⟩ : BufTy).Contents (Elt Ideal)) (x1 : (⟨S2x1600000, .i32⟩ : BufTy).Contents (Elt Ideal)) :
    val_main_v22 (F := Ideal) x0 x1 = segMean (F := Ideal) gather_S100000x128_S1600000x1_S1600000x128_1_0_n_n_0_1_1128 scatter_S100000x128_S1600000x1_S1600000x128_1_0_0_1 scatter_S100000_S1600000x1_S1600000_n_0_0_1 x0 (srcOf x1) (dstOf x1) := by
  unfold val_main_v22 val_main_v13 val_main_v21 val_main_v20 val_main_v19 val_main_v17 val_main_v18 val_main_v16 val_main_v15 val_main_v14
    val_main_v12 val_main_v11 val_main_v10 val_main_v9 val_main_v8 val_main_v7 val_main_v6 val_main_v5 val_main_v4 val_main_v3 val_main_v2 val_main_v1 val_main_v0
    val_main_c val_main_c_0 val_main_cst val_main_cst_1 val_main_cst_2 val_main_cst_3
  rfl

/-- The first layer before its clamp. -/
theorem pre1_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v30 (F := Ideal) x0 x1 x2 x3 x4 = layer (val_main_v22 (F := Ideal) x0 x1) x0 x2 x3 x4 := by
  unfold val_main_v30 val_main_v27 val_main_v24 val_main_v23 val_main_v29 val_main_v28 val_main_v26 val_main_v25
  exact hostLayer_eq _ _ _ _ _

/-- The first layer. -/
theorem hidden_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4 = reluLayer (val_main_v22 (F := Ideal) x0 x1) x0 x2 x3 x4 := by
  funext i
  obtain ⟨p, q, rfl⟩ : ∃ (p : Fin 100000) (q : Fin 128), i = ix2 p q := ⟨i 0, i 1, eq_ix2 i⟩
  rw [val_main_v31_apply, val_main_call0_v0_apply, val_main_call0_cst_apply, pre1_eq, layer_apply, reluLayer_apply]
  show max _ (Ideal.ofBits .f32 0x00000000#32) = _
  rw [Ideal.ofBits_zero_f32]

/-- The second neighbourhood mean: of the first layer's result. -/
theorem mean2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v50 (F := Ideal) x0 x1 x2 x3 x4
      = segMean (F := Ideal) gather_S100000x128_S1600000x1_S1600000x128_1_0_n_n_0_1_1128 scatter_S100000x128_S1600000x1_S1600000x128_1_0_0_1 scatter_S100000_S1600000x1_S1600000_n_0_0_1 (val_main_v31 (F := Ideal) x0 x1 x2 x3 x4) (srcOf x1) (dstOf x1) := by
  unfold val_main_v50 val_main_v41 val_main_v49 val_main_v48 val_main_v47 val_main_v45 val_main_v46 val_main_v44 val_main_v43 val_main_v42
    val_main_v40 val_main_v39 val_main_v38 val_main_v37 val_main_v36 val_main_v35 val_main_v34 val_main_v33 val_main_v32 val_main_v3 val_main_v2 val_main_v1 val_main_v0
    val_main_c_4 val_main_c_5 val_main_cst_6 val_main_cst_7 val_main_cst_8 val_main_cst_9
  rfl

/-- The second layer. -/
theorem out_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v58 (F := Ideal) x0 x1 x2 x3 x4 x5 x6 x7
      = layer (val_main_v50 (F := Ideal) x0 x1 x2 x3 x4) (val_main_v31 (F := Ideal) x0 x1 x2 x3 x4) x5 x6 x7 := by
  unfold val_main_v58 val_main_v55 val_main_v52 val_main_v51 val_main_v57 val_main_v56 val_main_v54 val_main_v53
  exact hostLayer_eq _ _ _ _ _

/-- THE REFERENCE'S RESULT is the two-layer network of its arguments. -/
theorem result_eq (m : (ℓ : Loc nD τ sig) → Buf (Elt Ideal) ℓ) (c : Dev nD) :
    Cert.ReferenceIdeal.Value.res_main_v58 m c
      = sage gather_S100000x128_S1600000x1_S1600000x128_1_0_n_n_0_1_1128 scatter_S100000x128_S1600000x1_S1600000x128_1_0_0_1 scatter_S100000_S1600000x1_S1600000_n_0_0_1
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [val_main_v58_eq, out_eq, mean2_eq, hidden_eq, mean1_eq]
  rfl

end Cert.ReferenceIdeal.RefValue

end
-- ==== Proof.lean ====
/-
  Two-layer GraphSAGE with mean aggregation: the kernel program against its array reference, over the extended reals.

  Both programs compute, twice, `mean · Wlᵀ + own · Wrᵀ + bias` with `mean` the average of the neighbours' rows
  (rows gathered along the edges, summed per destination node, divided by the number of incoming edges or by one);
  the first layer is clamped below at zero. The kernel program forms the two products of each layer block by
  block, 2000 rows at a time, with the operands narrowed to bf16 — no change of value over the reals — and adds
  the bias last; the reference adds the bias to the first product before the second. Addition on the extended
  reals is commutative and associative, so the two orders agree with no appeal to finiteness; the neighbourhood
  mean is the same function on both sides and is never opened.

  The three run claims: the two kernel programs' are the generated frame certificates, the reference's is its
  generated run with the result dropped. The idealization rewrote nothing, so its claim is trivial.
-/
import proofs.«147580_j10282151706738_1_alg».proof.Defs
import proofs.«147580_j10282151706738_1_alg».proof.Proof.Gen.Kernel
import proofs.«147580_j10282151706738_1_alg».proof.Proof.Gen.Kernel.Skeleton
import proofs.«147580_j10282151706738_1_alg».proof.Proof.Gen.Kernel.Launch
import proofs.«147580_j10282151706738_1_alg».proof.Proof.Gen.Kernel.Points
import proofs.«147580_j10282151706738_1_alg».proof.Proof.Gen.Kernel.Frame
import proofs.«147580_j10282151706738_1_alg».proof.Proof.Gen.KernelIdeal
import proofs.«147580_j10282151706738_1_alg».proof.Proof.Gen.KernelIdeal.Skeleton
import proofs.«147580_j10282151706738_1_alg».proof.Proof.Gen.KernelIdeal.Launch
import proofs.«147580_j10282151706738_1_alg».proof.Proof.Gen.KernelIdeal.Points
import proofs.«147580_j10282151706738_1_alg».proof.Proof.Gen.KernelIdeal.Frame
import proofs.«147580_j10282151706738_1_alg».proof.Proof.Gen.ReferenceIdeal
import proofs.«147580_j10282151706738_1_alg».proof.Proof.Gen.Pre_finite_inputs
import proofs.«147580_j10282151706738_1_alg».proof.Proof.Gen.ReferenceIdeal.Run
import proofs.«147580_j10282151706738_1_alg».proof.Proof.Gen.ReferenceIdeal.Read
import proofs.«147580_j10282151706738_1_alg».proof.Proof.KernelValue
import proofs.«147580_j10282151706738_1_alg».proof.Proof.ReferenceValue
import Idealize.ShloMosaic.Adequacy
import Idealize.ShloMosaic.Init

noncomputable section

namespace Cert.Proof

open Idealize.ShloMosaic Idealize.SL.Sem

/-! ## The two programs name the same gather and the same two sums -/

theorem gather_eq : Cert.KernelIdeal.gather_S100000x128_S1600000x1_S1600000x128_1_0_n_n_0_1_1128 = Cert.ReferenceIdeal.gather_S100000x128_S1600000x1_S1600000x128_1_0_n_n_0_1_1128 := rfl
theorem featureSum_eq : Cert.KernelIdeal.scatter_S100000x128_S1600000x1_S1600000x128_1_0_0_1 = Cert.ReferenceIdeal.scatter_S100000x128_S1600000x1_S1600000x128_1_0_0_1 := rfl
theorem countSum_eq : Cert.KernelIdeal.scatter_S100000_S1600000x1_S1600000_n_0_0_1 = Cert.ReferenceIdeal.scatter_S100000_S1600000x1_S1600000_n_0_0_1 := rfl

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the two-layer network of the arguments, which agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.RefValue.result_eq, e0, e1, e2, e3, e4, e5, e6, e7, gather_eq, featureSum_eq, countSum_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
